-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 25
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S128x128, .f32⟩
  | .hbm, ⟨22, _⟩ => ⟨S128x128, .bf16⟩
  | .hbm, ⟨23, _⟩ => ⟨S1x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S100000x128, .f32⟩
  | .hbm, ⟨22, _⟩ => ⟨S128x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Payload.lean ====
/- What the kernel body stores for one block of 5000 nodes, read at one index.

   The body adds the block of `x` and the block of `agg`, multiplies the sum by the resident 128 x 128 operand into a
   zero accumulator, and adds the resident row, broadcast down the 5000 rows. The narrowing of the sum to the short
   float format is the identity on the extended reals, and the product into zero is the plain sum over the one
   contracted coordinate. So at (p, q) the stored value is
     (sum over k of (x (p, k) + agg (p, k)) * w (k, q)) + row (0, q). -/
import proofs.«127650_j68032281968991_1_alg».proof.Proof.Gen.KernelIdeal.Skeleton
import proofs.«127650_j68032281968991_1_alg».proof.Proof.LibDotPlain
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx
open scoped BigOperators

/-- The resident row broadcast down the block's rows reads the row's entry of the same column. -/
theorem row_broadcast (r : Vec Ideal S1x128 .f32) (p : Fin 5000) (q : Fin 128) :
    broadcastTo S5000x128 r Facts₀.broadcasts_S1x128_S5000x128 (ix2 p q) = r (ix2 (0 : Fin 1) q) :=
  broadcastTo_apply r Facts₀.broadcasts_S1x128_S5000x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- The body's stored value at row p and column q of the block. -/
theorem pay_apply (v0 v1 : Vec Ideal S5000x128 .f32) (w : Vec Ideal S128x128 .bf16) (r : Vec Ideal S1x128 .f32)
    (p : Fin 5000) (q : Fin 128) :
    k0_pay1 (F := Ideal) v0 v1 w r (ix2 p q)
      = (∑ k : Fin 128, (v0 (ix2 p k) + v1 (ix2 p k)) * w (ix2 k q)) + r (ix2 (0 : Fin 1) q) := by
  unfold k0_pay1
  simp only [shapeCast_self]
  refine (addf_apply _ _ _).trans ?_
  refine congrArg₂ (· + ·) ?_ (row_broadcast r p q)
  exact Cert.DotPlain.matmul_zero_rows_cols dot_S5000x128_S128x128_S5000x128_1_0_0_1_n_n rfl rfl rfl rfl rfl rfl none _ _ p q

/-- The same at any index of the block. -/
theorem pay_at (v0 v1 : Vec Ideal S5000x128 .f32) (w : Vec Ideal S128x128 .bf16) (r : Vec Ideal S1x128 .f32)
    (y : S5000x128.Idx) :
    k0_pay1 (F := Ideal) v0 v1 w r y
      = (∑ k : Fin 128, (v0 (ix2 (y 0) k) + v1 (ix2 (y 0) k)) * w (ix2 k (y 1))) + r (ix2 (0 : Fin 1) (y 1)) := by
  obtain ⟨p, q, rfl⟩ : ∃ (p : Fin 5000) (q : Fin 128), y = ix2 p q := ⟨y 0, y 1, eq_ix2 y⟩
  exact pay_apply v0 v1 w r p q

end Cert.KernelIdeal.Payload

end
-- ==== Proof.Entry.lean ====
/- The three arrays the host computes before the kernel region, as functions of the program's arguments.

   `agg`: row i is the sum, over the edges whose destination is i, of the source node's row of `x` (a source
   index below zero is first wrapped by the number of nodes); it is a scatter-add into zeros of a gather, and is left
   as that composition here, since the reference computes it by the same operations.
   `wt`: the transposed weight, narrowed to the short float format (the identity on the extended reals).
   `row`: the bias as a one-row array; entry (0, q) is b q. -/
import proofs.«127650_j68032281968991_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- Each edge's source node, a negative index wrapped by the number of nodes. -/
def source (e : (⟨S2x600000, .i32⟩ : BufTy).Contents (Elt F)) : (⟨S600000, .i32⟩ : BufTy).Contents (Elt F) :=
  select
    (cmpi .slt (shapeCast _ (extractStridedSlice S1x600000 ![0, 0] e Facts₀.slices_S2x600000_S1x600000_0_0) Facts₀.shapeCasts_S1x600000_S600000)
      (broadcastInDim S600000 ![] Facts₀.bcast_S_S600000 (constantI S_ 32 0#32)))
    (addi (shapeCast _ (extractStridedSlice S1x600000 ![0, 0] e Facts₀.slices_S2x600000_S1x600000_0_0) Facts₀.shapeCasts_S1x600000_S600000)
      (broadcastInDim S600000 ![] Facts₀.bcast_S_S600000 (constantI S_ 32 100000#32)))
    (shapeCast _ (extractStridedSlice S1x600000 ![0, 0] e Facts₀.slices_S2x600000_S1x600000_0_0) Facts₀.shapeCasts_S1x600000_S600000)

/-- The neighbour sums: the gathered source rows scatter-added, by destination, into zeros. -/
def agg (x : (⟨S100000x128, .f32⟩ : BufTy).Contents (Elt F)) (e : (⟨S2x600000, .i32⟩ : BufTy).Contents (Elt F)) :
    (⟨S100000x128, .f32⟩ : BufTy).Contents (Elt F) :=
  Host.scatterAdd scatter_S100000x128_S600000x1_S600000x128_1_0_0_1
    (broadcastInDim S100000x128 ![] Facts₀.bcast_S_S100000x128 (constant S_ .f32 0x00000000#32))
    (broadcastInDim S600000x1 ![0] Facts₀.bcast_S600000_S600000x1_0
      (shapeCast _ (extractStridedSlice S1x600000 ![1, 0] e Facts₀.slices_S2x600000_S1x600000_1_0) Facts₀.shapeCasts_S1x600000_S600000))
    (Host.gather gather_S100000x128_S600000x1_S600000x128_1_0_n_n_0_1_1128 x
      (broadcastInDim S600000x1 ![0] Facts₀.bcast_S600000_S600000x1_0 (source e)))

/-- The transposed weight in the short float format. -/
def wt (w : (⟨S128x128, .f32⟩ : BufTy).Contents (Elt F)) : (⟨S128x128, .bf16⟩ : BufTy).Contents (Elt F) :=
  truncf .bf16 (transpose S128x128 [1, 0] w Facts₀.transposes_S128x128_S128x128_1_0) Facts₀.bitsLt_bf16_f32

/-- The bias as a one-row array. -/
def row (b : (⟨S128, .f32⟩ : BufTy).Contents (Elt F)) : (⟨S1x128, .f32⟩ : BufTy).Contents (Elt F) :=
  shapeCast S1x128 b Facts₀.shapeCasts_S128_S1x128

/-- Entry (0, q) of the one-row array is the bias of column q. -/
theorem row_apply {α : Type} (b : S128.Idx → α) (q : Fin 128) :
    shapeCast S1x128 b Facts₀.shapeCasts_S128_S1x128 (ix2 (0 : Fin 1) q) = b (ix1 q) :=
  shapeCast_apply b Facts₀.shapeCasts_S128_S1x128 (ix2 (0 : Fin 1) q) (ix1 q)
    (by rewrite [Shape.rowMajor_val_two, Shape.rowMajor_val_one]; show q.val = 0 * 128 + q.val; omega)

variable (m : (ℓ : Loc nD τ sig) → Buf (Elt F) ℓ)

/-- The region finds the neighbour sums of the launched features and edges in its second operand's array. -/
theorem V_agg (c : Dev nD) :
    (V m c main_v13 : (⟨S100000x128, .f32⟩ : BufTy).Contents (Elt F))
      = agg (m ((c : Thread nD τ).loc main_arg0)) (m ((c : Thread nD τ).loc main_arg1)) := by
  dsimp only [Gen.V, Gen.hostOps0]; after_results; rfl

/-- It finds the transposed weight in its third operand's array. -/
theorem V_wt (c : Dev nD) :
    (V m c main_v15 : (⟨S128x128, .bf16⟩ : BufTy).Contents (Elt F)) = wt (m ((c : Thread nD τ).loc main_arg2)) := by
  dsimp only [Gen.V, Gen.hostOps0]; after_results; rfl

/-- It finds the bias, as one row, in its fourth operand's array. -/
theorem V_row (c : Dev nD) :
    (V m c main_v16 : (⟨S1x128, .f32⟩ : BufTy).Contents (Elt F)) = row (m ((c : Thread nD τ).loc main_arg3)) := by
  dsimp only [Gen.V, Gen.hostOps0]; after_results; rfl

end Cert.KernelIdeal.Entry

end
-- ==== Proof.Affine.lean ====
/- The result both programs compute, as ONE function of four arrays: the node features `x`, the neighbour sums
   `agg` (row i holds the sum of the rows of `x` that an edge sends to node i), the transposed weight `wt` and the
   bias `b`. At node i and output channel q:

     out (i, q) = (sum over k of (x (i, k) + agg (i, k)) * wt (k, q)) + b q.

   The row index of `x` and `agg` is the result's row, the column index of `wt` the result's column; the bias depends
   on the column alone. Nothing here is special to the extended reals: the two programs are compared as this one
   expression, term by term, so no law beyond `0 + s = s` (the kernel's zero accumulator) is ever used. -/
import Idealize.ShloMosaic.PureOps.Ideal
import Idealize.ShloMosaic.Lib.ValueIdx

noncomputable section

namespace Cert.Affine

open Idealize.ShloMosaic Idealize.ShloMosaic.ValueIdx
open scoped BigOperators

/-- One row of 128 features per node. -/
abbrev Nodes : Shape := ⟨2, ![100000, 128]⟩
/-- The transposed weight: input channel by output channel. -/
abbrev Weight : Shape := ⟨2, ![128, 128]⟩
/-- One bias per output channel. -/
abbrev Bias : Shape := ⟨1, ![128]⟩

/-- The affine map of the summed features: `(x + agg) * wt + b`, read at one index. -/
def affine (x agg : Nodes.Idx → EReal) (wt : Weight.Idx → EReal) (b : Bias.Idx → EReal) : Nodes.Idx → EReal :=
  fun i => (∑ k : Fin 128, (x (ix2 (i 0) k) + agg (ix2 (i 0) k)) * wt (ix2 k (i 1))) + b (ix1 (i 1))

/-- The same at explicit coordinates. -/
theorem affine_ix2 (x agg : Nodes.Idx → EReal) (wt : Weight.Idx → EReal) (b : Bias.Idx → EReal) (r : Fin 100000) (q : Fin 128) :
    affine x agg wt b (ix2 r q) = (∑ k : Fin 128, (x (ix2 r k) + agg (ix2 r k)) * wt (ix2 k q)) + b (ix1 q) := rfl

end Cert.Affine

end
-- ==== Proof.Whole.lean ====
/- From blocks to the whole array: after the kernel's run the result array is the affine map of the summed features.

   The grid has 20 points; point t works on nodes 5000 t .. 5000 t + 4999. Its blocks of `x` and of the neighbour sums
   are rows 5000 t + p of those arrays, the transposed weight and the bias row are read whole at every point, and it
   writes back rows 5000 t + p of the result. So what point t writes back, at (p, q), is the affine map at node
   5000 t + p and column q: block t of ONE function of the arguments. Node i lies in the block of point i / 5000, so the
   20 blocks cover the array and the array ends holding that function. -/
import proofs.«127650_j68032281968991_1_alg».proof.Proof.Gen.KernelIdeal.Value
import proofs.«127650_j68032281968991_1_alg».proof.Proof.Payload
import proofs.«127650_j68032281968991_1_alg».proof.Proof.Entry
import proofs.«127650_j68032281968991_1_alg».proof.Proof.Affine

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Affine
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-- The index maps, decided over the 20 points: the features, the neighbour sums and the result move down the node
    axis with the point; the weight and the bias row stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 20 := Nat.lt_of_lt_of_eq t.isLt N_0

/-- Row p of point t's blocks is node 5000 t + p. -/
def node (t : Fin cfg0.N) (p : Fin 5000) : Fin 100000 :=
  ⟨t.val * 5000 + p.val, by have := point_lt t; have := p.isLt; omega⟩

/-- The launched features, the launched edges' neighbour sums, the transposed weight and the bias. -/
abbrev xs (c : Dev nD) : Nodes.Idx → EReal := m ((c : Thread nD τ).loc main_arg0)
abbrev sums (c : Dev nD) : Nodes.Idx → EReal :=
  Entry.agg (F := Ideal) (m ((c : Thread nD τ).loc main_arg0)) (m ((c : Thread nD τ).loc main_arg1))
abbrev wts (c : Dev nD) : Weight.Idx → EReal := Entry.wt (F := Ideal) (m ((c : Thread nD τ).loc main_arg2))
abbrev bias (c : Dev nD) : Bias.Idx → EReal := m ((c : Thread nD τ).loc main_arg3)

/-! ## The input blocks at a point, read at explicit coordinates -/

theorem x_block (c : Dev nD) (t : Fin cfg0.N) (p : Fin 5000) (k : Fin 128) :
    iblk m c 0 t (ix2 p k) = xs m c (ix2 (node t p) k) := by
  obtain ⟨e0, e1, -⟩ := index_maps t
  show V m c main_arg0 (((cfg0.win 0).blk t).view.emb (ix2 p k)) = _
  refine (congrFun (V_main_arg0 m c) _).trans (congrArg _ (funext fun a => Fin.ext ?_))
  match a with
  | ⟨0, _⟩ => show win0_0.index t (0 : Fin 2) * 5000 + 1 * p.val = t.val * 5000 + p.val; omega
  | ⟨1, _⟩ => show win0_0.index t (1 : Fin 2) * 128 + 1 * k.val = k.val; omega

theorem sums_block (c : Dev nD) (t : Fin cfg0.N) (p : Fin 5000) (k : Fin 128) :
    iblk m c 1 t (ix2 p k) = sums m c (ix2 (node t p) k) := by
  obtain ⟨-, -, e0, e1, -⟩ := index_maps t
  show V m c main_v13 (((cfg0.win 1).blk t).view.emb (ix2 p k)) = _
  refine (congrFun (Entry.V_agg m c) _).trans (congrArg _ (funext fun a => Fin.ext ?_))
  match a with
  | ⟨0, _⟩ => show win0_1.index t (0 : Fin 2) * 5000 + 1 * p.val = t.val * 5000 + p.val; omega
  | ⟨1, _⟩ => show win0_1.index t (1 : Fin 2) * 128 + 1 * k.val = k.val; omega

theorem wt_block (c : Dev nD) (t : Fin cfg0.N) (k : Fin 128) (q : Fin 128) :
    iblk m c 2 t (ix2 k q) = wts m c (ix2 k q) := by
  obtain ⟨-, -, -, -, e0, e1, -⟩ := index_maps t
  show V m c main_v15 (((cfg0.win 2).blk t).view.emb (ix2 k q)) = _
  refine (congrFun (Entry.V_wt m c) _).trans (congrArg _ (funext fun a => Fin.ext ?_))
  match a with
  | ⟨0, _⟩ => show win0_2.index t (0 : Fin 2) * 128 + 1 * k.val = k.val; omega
  | ⟨1, _⟩ => show win0_2.index t (1 : Fin 2) * 128 + 1 * q.val = q.val; omega

theorem row_block (c : Dev nD) (t : Fin cfg0.N) (q : Fin 128) :
    iblk m c 3 t (ix2 (0 : Fin 1) q) = bias m c (ix1 q) := by
  obtain ⟨-, -, -, -, -, -, e0, e1, -⟩ := index_maps t
  show V m c main_v16 (((cfg0.win 3).blk t).view.emb (ix2 (0 : Fin 1) q)) = _
  refine (congrFun (Entry.V_row m c) _).trans ?_
  refine Eq.trans (congrArg _ (funext fun a => Fin.ext ?_)) (Entry.row_apply (bias m c) q)
  match a with
  | ⟨0, _⟩ => show win0_3.index t (0 : Fin 2) * 1 + 1 * 0 = 0; omega
  | ⟨1, _⟩ => show win0_3.index t (1 : Fin 2) * 128 + 1 * q.val = q.val; omega

/-- Where point t's result block sits in the array. -/
theorem out_index (t : Fin cfg0.N) (j : S5000x128.Idx) :
    ((cfg0.win 4).blk t).view.emb j = ix2 (node t (j 0)) (j 1) := by
  obtain ⟨-, -, -, -, -, -, -, -, e0, e1⟩ := index_maps t
  funext a; apply Fin.ext
  match a with
  | ⟨0, _⟩ => show win0_4.index t (0 : Fin 2) * 5000 + 1 * (j 0).val = t.val * 5000 + (j 0).val; omega
  | ⟨1, _⟩ => show win0_4.index t (1 : Fin 2) * 128 + 1 * (j 1).val = (j 1).val; omega

/-! ## What a point writes back -/

/-- The body's stored value at index j of point t's block is the affine map at the array index the block puts j at:
    the block reads put rows 5000 t + p of the features and of the neighbour sums under the sum, the weight and the
    bias are read whole. -/
theorem block_value (c : Dev nD) (t : Fin cfg0.N) (j : S5000x128.Idx) :
    k0_pay1 (F := Ideal) (iblk m c 0 t) (iblk m c 1 t) (iblk m c 2 t) (iblk m c 3 t) j
      = affine (xs m c) (sums m c) (wts m c) (bias m c) (((cfg0.win 4).blk t).view.emb j) := by
  refine (Payload.pay_at (iblk m c 0 t) (iblk m c 1 t) (iblk m c 2 t) (iblk m c 3 t) j).trans ?_
  refine Eq.trans ?_ (congrArg (affine (xs m c) (sums m c) (wts m c) (bias m c)) (out_index t j)).symm
  refine Eq.trans ?_ (affine_ix2 (xs m c) (sums m c) (wts m c) (bias m c) (node t (j 0)) (j 1)).symm
  refine congrArg₂ (· + ·) (Finset.sum_congr rfl fun k _ => ?_) (row_block m c t (j 1))
  exact congrArg₂ (· * ·) (congrArg₂ (· + ·) (x_block m c t (j 0) k) (sums_block m c t (j 0) k)) (wt_block m c t k (j 1))

/-- Point t writes back block t of the affine map of the launched arrays. -/
theorem flushed_eq (c : Dev nD) (t : Fin cfg0.N) :
    (dats m 0 c).flushed 4 t
      = ((cfg0.win 4).blk t).view.read (Elt Ideal) (affine (xs m c) (sums m c) (wts m c) (bias m c)) := by
  rw [Value.flushed4]
  unfold out0_4
  rw [View.canon_unit_zero zero_offsets]
  simp only [View.ld_unit_zero (S := S5000x128) zero_offsets, View.ld_unit_zero (S := S128x128) zero_offsets,
    View.ld_unit_zero (S := S1x128) zero_offsets]
  funext j
  exact block_value m c t j

/-! ## The blocks cover the array -/

/-- An index is in point t's result block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v17).slice (win0_4.rect t)).set ↔ _
  rw [View.set_slice_whole, Rect.mem_set_unit]
  exact Iff.rfl

/-- Node i is in the block of point i / 5000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  obtain ⟨-, -, -, -, -, -, -, -, e0, e1⟩ := index_maps ⟨(i 0).val / 5000, by rw [hN]; omega⟩
  rw [mem_blk]
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-! ## The array after the run, and the run -/

/-- The result array after the run is the affine map of the launched arrays. -/
theorem final (c : Dev nD) :
    (dats m 0 c).arrAt 4 cfg0.N = affine (xs m c) (sums m c) (wts m c) (bias m c) :=
  (dats m 0 c).arrAt_eq_of_cover 4 _ (fun t _ => flushed_eq m c t) cover

/-- The kernel's run: it terminates with the result array at the affine map and the arguments unchanged. -/
theorem run : θ_run defs (onTc (τ := τ) (main (F := Ideal))) ⟨m, fun _ => 0, ρ⟩ fun r => ∀ c : Dev nD,
      r.2.mem ((c : Thread nD τ).loc main_v17) = affine (xs m c) (sums m c) (wts m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Reference.lean ====
/- The reference's result array is the affine map of the summed features.

   Its last stage adds the bias, broadcast along the rows, to a matrix product whose left operand is `x + agg` and
   whose right operand is the transposed weight. Read at (i, q): the product is the sum over the one contracted
   coordinate k of (x + agg) (i, k) * wt (k, q), and the two broadcasts of the bias read b q. The neighbour sums and
   the transposed weight are left as the stages that compute them: the kernel computes them by the same operations. -/
import proofs.«127650_j68032281968991_1_alg».proof.Proof.Gen.ReferenceIdeal.Read
import proofs.«127650_j68032281968991_1_alg».proof.Proof.Affine

noncomputable section

namespace Cert.ReferenceIdeal.RefValue

open Cert.ReferenceIdeal Cert.ReferenceIdeal.Read Idealize.ShloMosaic Idealize.ShloMosaic.ValueIdx Cert.Affine
open scoped BigOperators

/-- The product's left operand is read at the result's row and the contracted coordinate. -/
theorem left_index (i : S100000x128.Idx) (k : Fin 128) : lidx_main_v16 i k = ix2 (i 0) k :=
  funext fun a => by match a with | ⟨0, _⟩ => rfl | ⟨1, _⟩ => rfl

/-- Its right operand at the contracted coordinate and the result's column. -/
theorem right_index (i : S100000x128.Idx) (k : Fin 128) : ridx_main_v16 i k = ix2 k (i 1) :=
  funext fun a => by match a with | ⟨0, _⟩ => rfl | ⟨1, _⟩ => rfl

/-- Through both broadcasts the bias is read at the result's column. -/
theorem bias_index (i : S100000x128.Idx) : idx_main_v17 (idx_main_v18 i) = ix1 (i 1) :=
  funext fun a => by match a with | ⟨0, _⟩ => rfl

/-- The reference's result, as a function of its four arguments, is the affine map over its own neighbour sums
    (`val_main_v13`) and its own transposed weight (`val_main_v15`). -/
theorem result_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) :
    val_main_v19 (F := Ideal) x0 x1 x2 x3
      = affine x0 (val_main_v13 (F := Ideal) x0 x1) (val_main_v15 (F := Ideal) x2) x3 := by
  funext i
  rw [val_main_v19_apply, val_main_v16_apply, val_main_v18_apply, val_main_v17_apply]
  simp only [val_main_v14_apply, left_index, right_index, bias_index, Ideal.addf_def]
  rfl

end Cert.ReferenceIdeal.RefValue

end
-- ==== Proof.lean ====
/- A graph layer: every node adds to its own 128 features the features of the nodes that send it an edge, and the sum
   goes through one affine map, `out = (x + agg) * transpose W + b`.

   Both programs compute the neighbour sums `agg` on the host by the same operations (the source rows gathered, then
   scatter-added by destination into zeros), so that part is carried as one unopened term. They differ in how the affine
   map is done. The reference adds `x + agg` on the host, takes ONE matrix product with the transposed weight over all
   100000 nodes and adds the bias broadcast along the rows. The kernel does the addition, the product and the bias inside
   a grid of 20 points, 5000 nodes each; it narrows both operands of the product to a short float format, which on the
   extended reals is the identity, and multiplies into a zero accumulator, which there is `0 + s = s`.

   At node i and column q both are  (sum over k of (x (i, k) + agg (i, k)) * W (q, k)) + b q  (Proof/Affine.lean):
   the reference by reading its last three stages at an index (Proof/Reference.lean), the kernel by reading the stored
   block at an index (Proof/Payload.lean) at the rows its blocks hold (Proof/Whole.lean, over the arrays of
   Proof/Entry.lean), the 20 blocks covering the array. No term is moved across a sum or a product, so the finiteness
   of the inputs is never used.

   The frames of the two kernel programs are the generated ones; the reference's is its generated run with the result
   dropped. The idealization rewrote no operation, so there is nothing to preserve. -/
import proofs.«127650_j68032281968991_1_alg».proof.Defs
import proofs.«127650_j68032281968991_1_alg».proof.Proof.Gen.Kernel
import proofs.«127650_j68032281968991_1_alg».proof.Proof.Gen.Kernel.Skeleton
import proofs.«127650_j68032281968991_1_alg».proof.Proof.Gen.Kernel.Launch
import proofs.«127650_j68032281968991_1_alg».proof.Proof.Gen.Kernel.Points
import proofs.«127650_j68032281968991_1_alg».proof.Proof.Gen.Kernel.Frame
import proofs.«127650_j68032281968991_1_alg».proof.Proof.Gen.KernelIdeal
import proofs.«127650_j68032281968991_1_alg».proof.Proof.Gen.KernelIdeal.Skeleton
import proofs.«127650_j68032281968991_1_alg».proof.Proof.Gen.KernelIdeal.Launch
import proofs.«127650_j68032281968991_1_alg».proof.Proof.Gen.KernelIdeal.Points
import proofs.«127650_j68032281968991_1_alg».proof.Proof.Gen.KernelIdeal.Frame
import proofs.«127650_j68032281968991_1_alg».proof.Proof.Gen.ReferenceIdeal
import proofs.«127650_j68032281968991_1_alg».proof.Proof.Gen.Pre_finite_inputs
import proofs.«127650_j68032281968991_1_alg».proof.Proof.Gen.KernelIdeal.Value
import proofs.«127650_j68032281968991_1_alg».proof.Proof.Gen.ReferenceIdeal.Run
import proofs.«127650_j68032281968991_1_alg».proof.Proof.Gen.ReferenceIdeal.Read
import proofs.«127650_j68032281968991_1_alg».proof.Proof.Whole
import proofs.«127650_j68032281968991_1_alg».proof.Proof.Reference
import Idealize.ShloMosaic.Adequacy
import Idealize.ShloMosaic.Init

noncomputable section

namespace Cert.Proof

open Idealize.ShloMosaic Idealize.ShloMosaic.TcCoe Idealize.SL.Sem Cert.Affine

/-! ## The two programs' host parts agree -/

/-- The reference's neighbour sums are the kernel's: the same gather and scatter-add of the same arrays. -/
theorem sums_eq (x : (⟨Cert.ReferenceIdeal.S100000x128, .f32⟩ : BufTy).Contents (Elt Ideal))
    (e : (⟨Cert.ReferenceIdeal.S2x600000, .i32⟩ : BufTy).Contents (Elt Ideal)) :
    Cert.ReferenceIdeal.Read.val_main_v13 (F := Ideal) x e = Cert.KernelIdeal.Entry.agg (F := Ideal) x e := rfl

/-- The reference's transposed weight is the kernel's: narrowing it changes no value on the extended reals. -/
theorem weight_eq (w : (⟨Cert.ReferenceIdeal.S128x128, .f32⟩ : BufTy).Contents (Elt Ideal)) :
    (Cert.ReferenceIdeal.Read.val_main_v15 (F := Ideal) w : Weight.Idx → EReal) = Cert.KernelIdeal.Entry.wt (F := Ideal) w := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the affine map of the launched features, their neighbour sums, the
    transposed weight and the bias; the launched arrays agree, and the host parts are the same functions of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq _ _ _ _).trans ?_
  refine (Cert.ReferenceIdeal.RefValue.result_eq _ _ _ _).trans ?_
  rw [sums_eq, weight_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
